-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S65536x3 : Shape := ⟨2, ![65536, 3]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S4096x512 .f32) (main_arg1 : IVec S65536x3 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 32 := constantI S_ 32 0#32
  let main_v4 : IVec S65536x3 32 := broadcastInDim S65536x3 ![] bcast_S_S65536x3 main_c_0
  let main_v5 : IVec S65536x3 1 := cmpi .sge main_arg1 main_v4
  let main_c_1 : IVec S_ 1 := constantI S_ 1 1#1
  let main_v6 : IVec S_ 1 := (fun x v => Host.reduce IntOp.andi x v reducesTo_S65536x3_S_d0_1 h_S_) main_v5 main_c_1
  let main_v7 : IVec S_ 1 := andi main_v3 main_v6
  let main_c_2 : IVec S_ 32 := constantI S_ 32 4096#32
  let main_v8 : IVec S65536x3 32 := broadcastInDim S65536x3 ![] bcast_S_S65536x3 main_c_2
  let main_v9 : IVec S65536x3 1 := cmpi .slt main_arg1 main_v8
  let main_c_3 : IVec S_ 1 := constantI S_ 1 1#1
  let main_v10 : IVec S_ 1 := (fun x v => Host.reduce IntOp.andi x v reducesTo_S65536x3_S_d0_1 h_S_) main_v9 main_c_3
  let main_v11 : IVec S_ 1 := andi main_v7 main_v10
  main_v11
-- ==== Kernel.lean ====
abbrev S4096x512 : Shape := ⟨2, ![4096, 512]⟩
abbrev S65536x3 : Shape := ⟨2, ![65536, 3]⟩
abbrev S4096x4096 : Shape := ⟨2, ![4096, 4096]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S65536x1 : Shape := ⟨2, ![65536, 1]⟩
abbrev S65536 : Shape := ⟨1, ![65536]⟩
abbrev S16777216 : Shape := ⟨1, ![16777216]⟩
abbrev S_ : Shape := ⟨0, ![]⟩
abbrev S1 : Shape := ⟨1, ![1]⟩
abbrev S1x1 : Shape := ⟨2, ![1, 1]⟩

abbrev nBuf : Space → Nat
  | .hbm => 69
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S65536x3, .i32⟩
  | .hbm, ⟨2, _⟩ => ⟨S4096x4096, .f32⟩
  | .hbm, ⟨3, _⟩ => ⟨S65536x1, .i32⟩
  | .hbm, ⟨4, _⟩ => ⟨S65536, .i32⟩
  | .hbm, ⟨5, _⟩ => ⟨S65536x1, .i32⟩
  | .hbm, ⟨6, _⟩ => ⟨S65536, .i32⟩
  | .hbm, ⟨7, _⟩ => ⟨S65536x1, .i32⟩
  | .hbm, ⟨8, _⟩ => ⟨S65536, .i32⟩
  | .hbm, ⟨9, _⟩ => ⟨S16777216, .f32⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S1, .i32⟩
  | .hbm, ⟨27, _⟩ => ⟨S_, .i32⟩
  | .hbm, ⟨28, _⟩ => ⟨S65536x1, .i32⟩
  | .hbm, ⟨29, _⟩ => ⟨S65536x1, .i1⟩
  | .hbm, ⟨30, _⟩ => ⟨S1x1, .i32⟩
  | .hbm, ⟨31, _⟩ => ⟨S65536x1, .i32⟩
  | .hbm, ⟨32, _⟩ => ⟨S65536x1, .i1⟩
  | .hbm, ⟨33, _⟩ => ⟨S65536x1, .i1⟩
  | .hbm, ⟨34, _⟩ => ⟨S_, .i1⟩
  | .hbm, ⟨35, _⟩ => ⟨S65536, .i1⟩
  | .hbm, ⟨36, _⟩ => ⟨S65536, .f32⟩
  | .hbm, ⟨37, _⟩ => ⟨S_, .f32⟩
  | .hbm, ⟨38, _⟩ => ⟨S65536, .f32⟩
  | .hbm, ⟨39, _⟩ => ⟨S65536, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S1, .i32⟩
  | .hbm, ⟨49, _⟩ => ⟨S_, .i32⟩
  | .hbm, ⟨50, _⟩ => ⟨S65536x1, .i32⟩
  | .hbm, ⟨51, _⟩ => ⟨S65536x1, .i1⟩
  | .hbm, ⟨52, _⟩ => ⟨S1x1, .i32⟩
  | .hbm, ⟨53, _⟩ => ⟨S65536x1, .i32⟩
  | .hbm, ⟨54, _⟩ => ⟨S65536x1, .i1⟩
  | .hbm, ⟨55, _⟩ => ⟨S65536x1, .i1⟩
  | .hbm, ⟨56, _⟩ => ⟨S_, .i1⟩
  | .hbm, ⟨57, _⟩ => ⟨S65536, .i1⟩
  | .hbm, ⟨58, _⟩ => ⟨S65536, .f32⟩
  | .hbm, ⟨59, _⟩ => ⟨S_, .f32⟩
  | .hbm, ⟨60, _⟩ => ⟨S65536, .f32⟩
  | .hbm, ⟨61, _⟩ => ⟨S65536, .f32⟩
  | .hbm, ⟨62, _⟩ => ⟨S65536, .f32⟩
  | .hbm, ⟨63, _⟩ => ⟨S65536, .f32⟩
  | .hbm, ⟨64, _⟩ => ⟨S65536, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v14 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst : Ref sig .tc := ⟨.hbm, 65, rfl⟩
abbrev main_v19 : Ref sig .tc := ⟨.hbm, 66, rfl⟩
abbrev main_cst_1 : Ref sig .tc := ⟨.hbm, 67, rfl⟩
abbrev main_v20 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  shapeCasts_S4096x4096_S16777216 : S4096x4096.ShapeCasts S16777216
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  reducesTo_S65536_S_d0 : S65536.ReducesTo [0] S_
  dot_S1024x512_S1024x512_S1024x1024_1_1_0_0_n_n_wf : DotDims.WF S1024x512 S1024x512 S1024x1024 [1] [1] [0] [0] [] []
  gather_S16777216_S65536x1_S65536_n_0_n_n_0_1_1_wf : GatherDims.WF S16777216 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def gather_S16777216_S65536x1_S65536_n_0_n_n_0_1_1 : GatherDims S16777216 S65536x1 S65536 where
  offsetDims := []
  collapsedSliceDims := [0]
  operandBatchingDims := []
  startIndicesBatchingDims := []
  startIndexMap := [0]
  indexVectorDim := 1
  sliceSizes := ![1]
  wf := gather_S16777216_S65536x1_S65536_n_0_n_n_0_1_1_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S65536x3 : Shape := ⟨2, ![65536, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S65536x1 : Shape := ⟨2, ![65536, 1]⟩
abbrev S65536 : Shape := ⟨1, ![65536]⟩
abbrev S65536x2 : Shape := ⟨2, ![65536, 2]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S65536x3, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S65536x1, .i32⟩
  | .hbm, ⟨20, _⟩ => ⟨S65536, .i32⟩
  | .hbm, ⟨21, _⟩ => ⟨S65536x1, .i32⟩
  | .hbm, ⟨22, _⟩ => ⟨S65536, .i32⟩
  | .hbm, ⟨23, _⟩ => ⟨S65536x1, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S65536x1, .i32⟩
  | .hbm, ⟨41, _⟩ => ⟨S65536x2, .i32⟩
  | .hbm, ⟨42, _⟩ => ⟨S65536, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S_, .i32⟩
  | .hbm, ⟨51, _⟩ => ⟨S65536, .i32⟩
  | .hbm, ⟨52, _⟩ => ⟨S65536, .i1⟩
  | .hbm, ⟨53, _⟩ => ⟨S_, .i32⟩
  | .hbm, ⟨54, _⟩ => ⟨S65536, .i32⟩
  | .hbm, ⟨55, _⟩ => ⟨S65536, .i32⟩
  | .hbm, ⟨56, _⟩ => ⟨S65536, .i32⟩
  | .hbm, ⟨57, _⟩ => ⟨S65536x1, .i32⟩
  | .hbm, ⟨58, _⟩ => ⟨S65536x1, .i32⟩
  | .hbm, ⟨59, _⟩ => ⟨S65536x2, .i32⟩
  | .hbm, ⟨60, _⟩ => ⟨S65536, .f32⟩
  | .hbm, ⟨61, _⟩ => ⟨S65536, .f32⟩
  | .hbm, ⟨62, _⟩ => ⟨S65536, .f32⟩
  | .hbm, ⟨63, _⟩ => ⟨S65536, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_c_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536_S_d0 : S65536.ReducesTo [0] S_
  dot_S4096x512_S512x4096_S4096x4096_1_0_0_1_n_n_wf : DotDims.WF S4096x512 S512x4096 S4096x4096 [1] [0] [0] [1] [] []
  gather_S4096x4096_S65536x2_S65536_n_01_n_n_01_1_11_wf : GatherDims.WF S4096x4096 S65536x2 S65536 [] [0, 1] [] [0, 1] [] 1 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x4096_S65536x2_S65536_n_01_n_n_01_1_11 : GatherDims S4096x4096 S65536x2 S65536 where
  offsetDims := []
  collapsedSliceDims := [0, 1]
  operandBatchingDims := []
  startIndicesBatchingDims := []
  startIndexMap := [0, 1]
  indexVectorDim := 1
  sliceSizes := ![1, 1]
  wf := gather_S4096x4096_S65536x2_S65536_n_01_n_n_01_1_11_wf

class Facts : Prop extends Facts₀ where

variable [Facts]
-- ==== Proof.KBody.lean ====
/-
  The kernel region of the pairwise squared-distance program, at any float instance: what one grid point's body
  does to its three staging buffers, and the proof data of the pipeline that runs it.

  The kernel call has three windows over a 4 × 4 grid: window 0 is the row block `i` of `x` (1024 × 512), window 1 the
  row block `j` of THE SAME array `x`, window 2 the (i, j) block of the 4096 × 4096 result. The body loads both input
  blocks, reads the output buffer once (a value it never uses) and overwrites the whole output block with one store whose
  value is the pure function `k0_pay1` of the two input blocks. Because two windows read one array, the core holds `x`
  at the LEFT half share for window 0 and at the RIGHT half share for window 1; the result array is held at the full share.
-/
import proofs.«414802_j44513041056151_3_alg».proof.Proof.Gen.Kernel.Launch
import proofs.«414802_j44513041056151_3_alg».proof.Proof.Gen.Kernel.Skeleton
import proofs.«414802_j44513041056151_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's staging buffer holds its block at every point, fetched there or not: between two fetches
    the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input window. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output block -/

abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output block after the body: its one store, of the payload of the two input blocks. -/
def outBlk (x0 x1 : Vec F S1024x512 .f32) : Vec F S1024x1024 .f32 :=
  View.canon [⟨rOut, k0_pay1 (View.ld x0 rIn) (View.ld x1 rIn)⟩]

/-- The store covers the whole block. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs — the inputs' at contents `x0`, `x1`, the output's at anything — returns with the
    inputs as they were and the output at `outBlk x0 x1`. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1024 .f32) (harg4 : arg4.IsWhole)
    (x0 x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__pdist_kernel i arg2 harg2 arg3 harg3 arg4 harg4) K := by
  simp only [cc0__pdist_kernel_eq_skeleton]; unfold cc0__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data on core `c`: the arrays as the region finds them; after the body at point `t` each input's buffer at
    its block and the output's at `outBlk` of the two input blocks; the invariant the scoped rest and the generator
    register, untouched; nothing owed; `x` at the left half share for window 0 and the right half for window 1. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region

end
-- ==== Proof.KRun.lean ====
/-
  The run of the pairwise squared-distance program from launch to return, at any float instance.

  @main is one kernel region followed by four stretches of host operations (the index arithmetic, the two flat
  gathers, the loss). The thread state between segments is "every unscoped buffer of the core at a named valuation, the
  generator register at some state, nothing owed". The valuations are a fold from the launch memory: `W0` the launch
  memory, `W1` the same with the result array at what the region's write-backs leave, then one `StableHlo.after` per stretch.

  The region reads `x` through two windows. At its entry the full share of `x` is split in its left and right halves,
  one per window; at its exit both windows hand back `x` at its entry contents (an input window never writes), and the
  halves are joined again. The result array goes in and out at the full share.
-/
import proofs.«414802_j44513041056151_3_alg».proof.Proof.KBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: what the region's proof data take. -/
abbrev V0 : (c : Dev nD) → (b : Ref sig .tc) → Buf (Elt F) ((c : Thread nD τ).loc b) := fun c b => W0 m ρ c b

/-- The result array as the region leaves it: its write-backs folded over the grid. -/
def distArr (c : Dev nD) : (Proc.devRef (τ := τ) .tc main_v0).ty.Contents (Elt F) := (dat (V0 m ρ) c).arrAt 2 cfg0.N

/-- At the region's exit: the result array at `distArr`, every other buffer as at launch. -/
def W1 (c : Dev nD) : Valuation τ sig (Elt F) := Function.update (W0 m ρ c) (Proc.devRef .tc main_v0) (distArr m ρ c)
theorem W1_out (c : Dev nD) : W1 m ρ c (Proc.devRef .tc main_v0) = distArr m ρ c := Function.update_self ..
theorem W1_of_ne (c : Dev nD) (b : Ref sig .tc) (hb : b ≠ main_v0) : W1 m ρ c (Proc.devRef .tc b) = W0 m ρ c (Proc.devRef .tc b) :=
  Function.update_of_ne (fun e => hb (Proc.devRef_injective _ e)) ..
abbrev V1 : (c : Dev nD) → (b : Ref sig .tc) → Buf (Elt F) ((c : Thread nD τ).loc b) := fun c b => W1 m ρ c b

/-- After the index arithmetic, -/
abbrev W2 : Dev nD → Valuation τ sig (Elt F) := fun c => StableHlo.after hostOps1 (W1 m ρ c)
/-- the first flat gather, -/
abbrev W3 : Dev nD → Valuation τ sig (Elt F) := fun c => StableHlo.after hostOps1_1 (W2 m ρ c)
/-- the second, -/
abbrev W4 : Dev nD → Valuation τ sig (Elt F) := fun c => StableHlo.after hostOps1_2 (W3 m ρ c)
/-- and the loss: the contents at the return. -/
abbrev W5 : Dev nD → Valuation τ sig (Elt F) := fun c => StableHlo.after hostOps1_3 (W4 m ρ c)

/-! ## The proof data family and the thread state -/

abbrev adm : (p : Fin 1) → (pcfgs (F := F) p).Adm := fun p => (cfgs p).toPCfg_adm
/-- The one pipeline's proof data, at the launch contents. -/
def pdats : (p : Fin 1) → (c : Dev nD) → Dat τ (Elt F) Unit ℕ (UR sig nD τ) ℕ (Pipeline.pin (pcfgs (F := F)) adm p) c
  | ⟨0, _⟩ => fun c => dat (V0 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m ρ c) ∗ ∃ r, prngReg c r)

/-! ## The arrays in and out of the unscoped buffers, one array shared by two windows -/

/-- The two distinct buffers behind the three windows. -/
theorem arrImage : Finset.univ.image (Pipeline.arrRef spec0) = ([main_arg0, main_v0] : List (Ref sig .tc)).toFinset := by decide

/-- The pipeline's arrays, each whole: a points-to per window at the window's share. -/
theorem arrays_as (c : Dev nD) (G : (w : Fin (Pipeline.pin (pcfgs (F := F)) adm 0).W) → Buf (Elt F) (((Pipeline.pin (pcfgs (F := F)) adm 0).spec w).arr.view.loc (c.tc : Thread nD τ))) :
    (pdats m ρ 0 c).arrays G = bigSep Finset.univ fun w => (((c.tc : Thread nD τ).loc (Pipeline.arrRef (Pipeline.pin (pcfgs (F := F)) adm 0).spec w)) ↦{(pdats m ρ 0 c).share w} G w : sProp 𝕄) := by
  unfold Dat.arrays
  exact bigSep_congr fun w _ => by rw [(arr_whole0 w).set_eq_univ]

theorem share_0 (c : Dev nD) : (pdats m ρ 0 c).share 0 = fullShare.left := rfl
theorem share_1 (c : Dev nD) : (pdats m ρ 0 c).share 1 = fullShare.right := rfl
theorem share_2 (c : Dev nD) : (pdats m ρ 0 c).share 2 = fullShare := rfl

/-- ENTRY: the core's unscoped buffers at the launch contents are the pipeline's arrays at their entry contents —
    `x`'s full share split between the two windows that read it — and the unscoped rest. -/
theorem entry_split (c : Dev nD) :
    (StableHlo.held (c : Thread nD τ) (Pipeline.ucRefs τ sig) (W0 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V0 m ρ c)) := by
  rw [← Pipeline.unscopedBufs_held c (W0 m ρ c)]
  rw [Pipeline.unscopedBufs_split₀ (Pipeline.pin (pcfgs (F := F)) adm) 0 winFacts₀0.arr_unscoped c (V0 m ρ c)]
  refine sep_mono ?_ .rfl
  rw [arrays_as]
  unfold Pipeline.arrBufs
  rw [bigSep_eq_bigSepL_of_eq [main_arg0, main_v0] arrImage (by decide)]
  simp only [bigSepL_cons_cons, bigSepL_singleton]
  rw [bigSep_W0, share_0, share_1, share_2]
  exact (sep_mono (pointsTo_share (PosShare.mem_left_op_right fullShare)).1 .rfl).trans sep_assoc.1

/-- An input window's array is never written: after all the points it is what it was at entry. -/
theorem arrAt_0 (c : Dev nD) : (pdats m ρ 0 c).arrAt 0 cfg0.N = V0 m ρ c main_arg0 :=
  ((dat (V0 m ρ) c).arrAt_in 0 rfl _).trans (A_eq (V0 m ρ) c 0)
theorem arrAt_1 (c : Dev nD) : (pdats m ρ 0 c).arrAt 1 cfg0.N = V0 m ρ c main_arg0 :=
  ((dat (V0 m ρ) c).arrAt_in 1 rfl _).trans (A_eq (V0 m ρ) c 1)

/-- EXIT: the pipeline's arrays at their final contents and the unscoped rest are the core's unscoped buffers at `W1`:
    the two halves of `x` joined at its launch contents, the result array at `distArr`. -/
theorem exit_join (c : Dev nD) :
    iprop((pdats m ρ 0 c).arrays ((pdats m ρ 0 c).arrAt · cfg0.N) ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  rw [← Pipeline.unscopedBufs_held c (W1 m ρ c)]
  rw [Pipeline.unscopedBufs_split₀ (Pipeline.pin (pcfgs (F := F)) adm) 0 winFacts₀0.arr_unscoped c (V1 m ρ c)]
  refine sep_mono ?_ (Entails.of_eq ?_)
  · rw [arrays_as]
    unfold Pipeline.arrBufs
    rw [bigSep_eq_bigSepL_of_eq [main_arg0, main_v0] arrImage (by decide)]
    simp only [bigSepL_cons_cons, bigSepL_singleton]
    rw [bigSep_W0, share_0, share_1, share_2, arrAt_0, arrAt_1]
    rw [show V1 m ρ c main_arg0 = V0 m ρ c main_arg0 from W1_of_ne m ρ c main_arg0 (by decide),
      show V1 m ρ c main_v0 = (pdats m ρ 0 c).arrAt 2 cfg0.N from W1_out m ρ c]
    exact sep_assoc.2.trans (sep_mono (pointsTo_share (PosShare.mem_left_op_right fullShare)).2 .rfl)
  · unfold Pipeline.unscopedRest
    exact bigSep_congr fun b hb => by
      rw [show V1 m ρ c b = V0 m ρ c b from W1_of_ne m ρ c b fun e =>
        (Finset.mem_sdiff.mp hb).2 (Finset.mem_image.mpr ⟨2, Finset.mem_univ _, e ▸ rfl⟩)]

/-! ## The region as a segment -/

set_option backward.isDefEq.respectTransparency.types false in
/-- The kernel region over the thread state: entered from every unscoped buffer at `W0`, left at `W1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of the core holds what the fold `W5` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Region

end
-- ==== Proof.KFrame.lean ====
/-
  The frame of the pairwise squared-distance program, read off its run: no host operation and no write-back of the
  kernel region touches an argument array, so both end as launched.
-/
import proofs.«414802_j44513041056151_3_alg».proof.Proof.KRun

set_option maxRecDepth 16384

noncomputable section

namespace Cert.Kernel.Region

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- No host operation and no write-back touches the first argument. -/
theorem W5_main_arg0 (c : Dev nD) : W5 m ρ c (Proc.devRef .tc main_arg0) = m ((c : Thread nD τ).loc main_arg0) := by
  show StableHlo.after hostOps1_3 (StableHlo.after hostOps1_2 (StableHlo.after hostOps1_1 (StableHlo.after hostOps1 (W1 m ρ c)))) (Proc.devRef .tc main_arg0) = _
  after_results_simp
  exact W1_of_ne m ρ c main_arg0 (by decide)

/-- Nor the second. -/
theorem W5_main_arg1 (c : Dev nD) : W5 m ρ c (Proc.devRef .tc main_arg1) = m ((c : Thread nD τ).loc main_arg1) := by
  show StableHlo.after hostOps1_3 (StableHlo.after hostOps1_2 (StableHlo.after hostOps1_1 (StableHlo.after hostOps1 (W1 m ρ c)))) (Proc.devRef .tc main_arg1) = _
  after_results_simp
  exact W1_of_ne m ρ c main_arg1 (by decide)

/-- THE FRAME at any float instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Region

end
-- ==== Proof.KIBody.lean ====
/-
  The kernel region of the pairwise squared-distance program, at any float instance: what one grid point's body
  does to its three staging buffers, and the proof data of the pipeline that runs it.

  The kernel call has three windows over a 4 × 4 grid: window 0 is the row block `i` of `x` (1024 × 512), window 1 the
  row block `j` of THE SAME array `x`, window 2 the (i, j) block of the 4096 × 4096 result. The body loads both input
  blocks, reads the output buffer once (a value it never uses) and overwrites the whole output block with one store whose
  value is the pure function `k0_pay1` of the two input blocks. Because two windows read one array, the core holds `x`
  at the LEFT half share for window 0 and at the RIGHT half share for window 1; the result array is held at the full share.
-/
import proofs.«414802_j44513041056151_3_alg».proof.Proof.Gen.KernelIdeal.Launch
import proofs.«414802_j44513041056151_3_alg».proof.Proof.Gen.KernelIdeal.Skeleton
import proofs.«414802_j44513041056151_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's staging buffer holds its block at every point, fetched there or not: between two fetches
    the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input window. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output block -/

abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output block after the body: its one store, of the payload of the two input blocks. -/
def outBlk (x0 x1 : Vec F S1024x512 .f32) : Vec F S1024x1024 .f32 :=
  View.canon [⟨rOut, k0_pay1 (View.ld x0 rIn) (View.ld x1 rIn)⟩]

/-- The store covers the whole block. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs — the inputs' at contents `x0`, `x1`, the output's at anything — returns with the
    inputs as they were and the output at `outBlk x0 x1`. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1024 .f32) (harg4 : arg4.IsWhole)
    (x0 x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__pdist_kernel i arg2 harg2 arg3 harg3 arg4 harg4) K := by
  simp only [cc0__pdist_kernel_eq_skeleton]; unfold cc0__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data on core `c`: the arrays as the region finds them; after the body at point `t` each input's buffer at
    its block and the output's at `outBlk` of the two input blocks; the invariant the scoped rest and the generator
    register, untouched; nothing owed; `x` at the left half share for window 0 and the right half for window 1. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region

end
-- ==== Proof.KIRun.lean ====
/-
  The run of the pairwise squared-distance program from launch to return, at any float instance.

  @main is one kernel region followed by four stretches of host operations (the index arithmetic, the two flat
  gathers, the loss). The thread state between segments is "every unscoped buffer of the core at a named valuation, the
  generator register at some state, nothing owed". The valuations are a fold from the launch memory: `W0` the launch
  memory, `W1` the same with the result array at what the region's write-backs leave, then one `StableHlo.after` per stretch.

  The region reads `x` through two windows. At its entry the full share of `x` is split in its left and right halves,
  one per window; at its exit both windows hand back `x` at its entry contents (an input window never writes), and the
  halves are joined again. The result array goes in and out at the full share.
-/
import proofs.«414802_j44513041056151_3_alg».proof.Proof.KIBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: what the region's proof data take. -/
abbrev V0 : (c : Dev nD) → (b : Ref sig .tc) → Buf (Elt F) ((c : Thread nD τ).loc b) := fun c b => W0 m ρ c b

/-- The result array as the region leaves it: its write-backs folded over the grid. -/
def distArr (c : Dev nD) : (Proc.devRef (τ := τ) .tc main_v0).ty.Contents (Elt F) := (dat (V0 m ρ) c).arrAt 2 cfg0.N

/-- At the region's exit: the result array at `distArr`, every other buffer as at launch. -/
def W1 (c : Dev nD) : Valuation τ sig (Elt F) := Function.update (W0 m ρ c) (Proc.devRef .tc main_v0) (distArr m ρ c)
theorem W1_out (c : Dev nD) : W1 m ρ c (Proc.devRef .tc main_v0) = distArr m ρ c := Function.update_self ..
theorem W1_of_ne (c : Dev nD) (b : Ref sig .tc) (hb : b ≠ main_v0) : W1 m ρ c (Proc.devRef .tc b) = W0 m ρ c (Proc.devRef .tc b) :=
  Function.update_of_ne (fun e => hb (Proc.devRef_injective _ e)) ..
abbrev V1 : (c : Dev nD) → (b : Ref sig .tc) → Buf (Elt F) ((c : Thread nD τ).loc b) := fun c b => W1 m ρ c b

/-- After the index arithmetic, -/
abbrev W2 : Dev nD → Valuation τ sig (Elt F) := fun c => StableHlo.after hostOps1 (W1 m ρ c)
/-- the first flat gather, -/
abbrev W3 : Dev nD → Valuation τ sig (Elt F) := fun c => StableHlo.after hostOps1_1 (W2 m ρ c)
/-- the second, -/
abbrev W4 : Dev nD → Valuation τ sig (Elt F) := fun c => StableHlo.after hostOps1_2 (W3 m ρ c)
/-- and the loss: the contents at the return. -/
abbrev W5 : Dev nD → Valuation τ sig (Elt F) := fun c => StableHlo.after hostOps1_3 (W4 m ρ c)

/-! ## The proof data family and the thread state -/

abbrev adm : (p : Fin 1) → (pcfgs (F := F) p).Adm := fun p => (cfgs p).toPCfg_adm
/-- The one pipeline's proof data, at the launch contents. -/
def pdats : (p : Fin 1) → (c : Dev nD) → Dat τ (Elt F) Unit ℕ (UR sig nD τ) ℕ (Pipeline.pin (pcfgs (F := F)) adm p) c
  | ⟨0, _⟩ => fun c => dat (V0 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m ρ c) ∗ ∃ r, prngReg c r)

/-! ## The arrays in and out of the unscoped buffers, one array shared by two windows -/

/-- The two distinct buffers behind the three windows. -/
theorem arrImage : Finset.univ.image (Pipeline.arrRef spec0) = ([main_arg0, main_v0] : List (Ref sig .tc)).toFinset := by decide

/-- The pipeline's arrays, each whole: a points-to per window at the window's share. -/
theorem arrays_as (c : Dev nD) (G : (w : Fin (Pipeline.pin (pcfgs (F := F)) adm 0).W) → Buf (Elt F) (((Pipeline.pin (pcfgs (F := F)) adm 0).spec w).arr.view.loc (c.tc : Thread nD τ))) :
    (pdats m ρ 0 c).arrays G = bigSep Finset.univ fun w => (((c.tc : Thread nD τ).loc (Pipeline.arrRef (Pipeline.pin (pcfgs (F := F)) adm 0).spec w)) ↦{(pdats m ρ 0 c).share w} G w : sProp 𝕄) := by
  unfold Dat.arrays
  exact bigSep_congr fun w _ => by rw [(arr_whole0 w).set_eq_univ]

theorem share_0 (c : Dev nD) : (pdats m ρ 0 c).share 0 = fullShare.left := rfl
theorem share_1 (c : Dev nD) : (pdats m ρ 0 c).share 1 = fullShare.right := rfl
theorem share_2 (c : Dev nD) : (pdats m ρ 0 c).share 2 = fullShare := rfl

/-- ENTRY: the core's unscoped buffers at the launch contents are the pipeline's arrays at their entry contents —
    `x`'s full share split between the two windows that read it — and the unscoped rest. -/
theorem entry_split (c : Dev nD) :
    (StableHlo.held (c : Thread nD τ) (Pipeline.ucRefs τ sig) (W0 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V0 m ρ c)) := by
  rw [← Pipeline.unscopedBufs_held c (W0 m ρ c)]
  rw [Pipeline.unscopedBufs_split₀ (Pipeline.pin (pcfgs (F := F)) adm) 0 winFacts₀0.arr_unscoped c (V0 m ρ c)]
  refine sep_mono ?_ .rfl
  rw [arrays_as]
  unfold Pipeline.arrBufs
  rw [bigSep_eq_bigSepL_of_eq [main_arg0, main_v0] arrImage (by decide)]
  simp only [bigSepL_cons_cons, bigSepL_singleton]
  rw [bigSep_W0, share_0, share_1, share_2]
  exact (sep_mono (pointsTo_share (PosShare.mem_left_op_right fullShare)).1 .rfl).trans sep_assoc.1

/-- An input window's array is never written: after all the points it is what it was at entry. -/
theorem arrAt_0 (c : Dev nD) : (pdats m ρ 0 c).arrAt 0 cfg0.N = V0 m ρ c main_arg0 :=
  ((dat (V0 m ρ) c).arrAt_in 0 rfl _).trans (A_eq (V0 m ρ) c 0)
theorem arrAt_1 (c : Dev nD) : (pdats m ρ 0 c).arrAt 1 cfg0.N = V0 m ρ c main_arg0 :=
  ((dat (V0 m ρ) c).arrAt_in 1 rfl _).trans (A_eq (V0 m ρ) c 1)

/-- EXIT: the pipeline's arrays at their final contents and the unscoped rest are the core's unscoped buffers at `W1`:
    the two halves of `x` joined at its launch contents, the result array at `distArr`. -/
theorem exit_join (c : Dev nD) :
    iprop((pdats m ρ 0 c).arrays ((pdats m ρ 0 c).arrAt · cfg0.N) ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  rw [← Pipeline.unscopedBufs_held c (W1 m ρ c)]
  rw [Pipeline.unscopedBufs_split₀ (Pipeline.pin (pcfgs (F := F)) adm) 0 winFacts₀0.arr_unscoped c (V1 m ρ c)]
  refine sep_mono ?_ (Entails.of_eq ?_)
  · rw [arrays_as]
    unfold Pipeline.arrBufs
    rw [bigSep_eq_bigSepL_of_eq [main_arg0, main_v0] arrImage (by decide)]
    simp only [bigSepL_cons_cons, bigSepL_singleton]
    rw [bigSep_W0, share_0, share_1, share_2, arrAt_0, arrAt_1]
    rw [show V1 m ρ c main_arg0 = V0 m ρ c main_arg0 from W1_of_ne m ρ c main_arg0 (by decide),
      show V1 m ρ c main_v0 = (pdats m ρ 0 c).arrAt 2 cfg0.N from W1_out m ρ c]
    exact sep_assoc.2.trans (sep_mono (pointsTo_share (PosShare.mem_left_op_right fullShare)).2 .rfl)
  · unfold Pipeline.unscopedRest
    exact bigSep_congr fun b hb => by
      rw [show V1 m ρ c b = V0 m ρ c b from W1_of_ne m ρ c b fun e =>
        (Finset.mem_sdiff.mp hb).2 (Finset.mem_image.mpr ⟨2, Finset.mem_univ _, e ▸ rfl⟩)]

/-! ## The region as a segment -/

set_option backward.isDefEq.respectTransparency.types false in
/-- The kernel region over the thread state: entered from every unscoped buffer at `W0`, left at `W1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of the core holds what the fold `W5` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Region

end
-- ==== Proof.KIFrame.lean ====
/-
  The frame of the pairwise squared-distance program, read off its run: no host operation and no write-back of the
  kernel region touches an argument array, so both end as launched.
-/
import proofs.«414802_j44513041056151_3_alg».proof.Proof.KIRun

set_option maxRecDepth 16384

noncomputable section

namespace Cert.KernelIdeal.Region

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- No host operation and no write-back touches the first argument. -/
theorem W5_main_arg0 (c : Dev nD) : W5 m ρ c (Proc.devRef .tc main_arg0) = m ((c : Thread nD τ).loc main_arg0) := by
  show StableHlo.after hostOps1_3 (StableHlo.after hostOps1_2 (StableHlo.after hostOps1_1 (StableHlo.after hostOps1 (W1 m ρ c)))) (Proc.devRef .tc main_arg0) = _
  after_results_simp
  exact W1_of_ne m ρ c main_arg0 (by decide)

/-- Nor the second. -/
theorem W5_main_arg1 (c : Dev nD) : W5 m ρ c (Proc.devRef .tc main_arg1) = m ((c : Thread nD τ).loc main_arg1) := by
  show StableHlo.after hostOps1_3 (StableHlo.after hostOps1_2 (StableHlo.after hostOps1_1 (StableHlo.after hostOps1 (W1 m ρ c)))) (Proc.devRef .tc main_arg1) = _
  after_results_simp
  exact W1_of_ne m ρ c main_arg1 (by decide)

/-- THE FRAME at any float instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Region

end
-- ==== Proof.KITailDefs.lean ====
/-
  The host operations after the kernel region as pure functions of the result array and the triplet array.

  After the region @main takes the three columns of the triplet array, flattens the 4096 × 4096 result to a vector of
  2²⁴ entries, forms the flat positions a·4096 + b, and looks them up twice with a `take` in "fill" mode: a
  negative position is first moved up by 2²⁴, a position outside [0, 2²⁴ − 1] then reads the fill value, any other reads the
  vector. The loss is the mean over the triplets of log1p (exp (d_pos − d_neg)).
-/
import proofs.«414802_j44513041056151_3_alg».proof.Proof.Gen.KernelIdeal

noncomputable section

namespace Cert.KernelIdeal.Tail

open Cert.KernelIdeal Cert.KernelIdeal.Facts₀ Cert.KernelIdeal.Facts
open Idealize.ShloMosaic Idealize.ShloMosaic.TcCoe

variable {F : FTy → Type} [FloatOps F]

/-- Column 0, 1, 2 of the triplet array as a vector: a slice, then the reshape that drops the unit axis. -/
def col0 (t : IVec S65536x3 32) : IVec S65536 32 :=
  shapeCast _ (extractStridedSlice S65536x1 ![0, 0] t slices_S65536x3_S65536x1_0_0) shapeCasts_S65536x1_S65536
def col1 (t : IVec S65536x3 32) : IVec S65536 32 :=
  shapeCast _ (extractStridedSlice S65536x1 ![0, 1] t slices_S65536x3_S65536x1_0_1) shapeCasts_S65536x1_S65536
def col2 (t : IVec S65536x3 32) : IVec S65536 32 :=
  shapeCast _ (extractStridedSlice S65536x1 ![0, 2] t slices_S65536x3_S65536x1_0_2) shapeCasts_S65536x1_S65536

/-- The result array as a vector of 2²⁴ entries, row-major. -/
def flatOf (d : FVec F S4096x4096 .f32) : FVec F S16777216 .f32 := shapeCast _ d shapeCasts_S4096x4096_S16777216

/-- The flat position a·4096 + b, in 32-bit arithmetic. -/
def flatIdx (a b : IVec S65536 32) : IVec S65536 32 :=
  addi (muli a (broadcastInDim S65536 ![] bcast_S_S65536 (constantI S_ 32 4096#32))) b

/-- The position after the wrap of negative positions: idx + 2²⁴ where idx < 0. -/
def wrapIdx (idx : IVec S65536 32) : IVec S65536 32 :=
  select (cmpi .slt idx (broadcastInDim S65536 ![] bcast_S_S65536 (constantI S_ 32 0#32)))
    (addi idx (broadcastInDim S65536 ![] bcast_S_S65536 (constantI S_ 32 16777216#32))) idx

/-- The wrapped positions as the one-column table of start indices the gather takes. -/
def startCol (idx : IVec S65536 32) : IVec S65536x1 32 :=
  broadcastInDim S65536x1 ![0] bcast_S65536_S65536x1_0 (wrapIdx idx)

/-- Which positions lie inside the vector: 0 ≤ p ≤ 2²⁴ − 1, the conjunction taken along the unit axis. -/
def inRange (idx : IVec S65536 32) : IVec S65536 1 :=
  Host.reduce IntOp.andi
    (andi (cmpi .sge (startCol idx) (broadcastInDim S65536x1 ![] bcast_S_S65536x1 (constantI S_ 32 0#32)))
      (cmpi .sle (startCol idx) (broadcastInDim S65536x1 ![0, 1] bcast_S1x1_S65536x1_0_1
        (broadcastInDim S1x1 ![1] bcast_S1_S1x1_1 (constantI S1 32 16777215#32)))))
    (constantI S_ 1 1#1) reducesTo_S65536x1_S65536_d1 h_S_

/-- The `take` in fill mode. -/
def take (flat : FVec F S16777216 .f32) (idx : IVec S65536 32) : FVec F S65536 .f32 :=
  select (inRange idx) (Host.gather gather_S16777216_S65536x1_S65536_n_0_n_n_0_1_1 flat (startCol idx))
    (broadcastInDim S65536 ![] bcast_S_S65536 (constant S_ .f32 0x7FC00000#32))

/-- The loss from the two looked-up distance vectors. -/
def loss (a b : FVec F S65536 .f32) : FVec F S_ .f32 :=
  Host.divf (Host.reduceAdd (Host.log1p (Host.exp (subf a b))) (constant S_ .f32 0x00000000#32) reducesTo_S65536_S_d0 h_S_)
    (constant S_ .f32 0x47800000#32)

/-- The program's result as a function of the distance matrix and the triplets. -/
def result (d : FVec F S4096x4096 .f32) (t : IVec S65536x3 32) : FVec F S_ .f32 :=
  loss (take (flatOf d) (flatIdx (col0 t) (col1 t))) (take (flatOf d) (flatIdx (col0 t) (col2 t)))

end Cert.KernelIdeal.Tail

end
-- ==== Proof.KIValue.lean ====
/-
  The value the pairwise squared-distance program returns, read off its run: the result buffer holds the host tail's
  function of the kernel region's result array and the triplet array.
-/
import proofs.«414802_j44513041056151_3_alg».proof.Proof.KIFrame
import proofs.«414802_j44513041056151_3_alg».proof.Proof.KITailDefs

set_option maxRecDepth 16384

noncomputable section

namespace Cert.KernelIdeal.Region

open Cert.KernelIdeal Cert.KernelIdeal.Gen Cert.KernelIdeal.Tail
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

set_option maxRecDepth 65536 in
/-- The result buffer holds `Tail.result` of the region's result array and the triplets: each host operation's result
    read at its own buffer, the typed references of the outlined `take` transported along equal types. -/
theorem W5_main_v20 (c : Dev nD) :
    W5 m ρ c (Proc.devRef .tc main_v20) = Tail.result (F := F) (distArr m ρ c) (m ((c : Thread nD τ).loc main_arg1)) := by
  show StableHlo.after hostOps1_3 (StableHlo.after hostOps1_2 (StableHlo.after hostOps1_1 (StableHlo.after hostOps1 (W1 m ρ c)))) (Proc.devRef .tc main_v20) = _
  after_results_simp
  rw [W1_out m ρ c, show W1 m ρ c (Proc.devRef .tc main_arg1) = m ((c : Thread nD τ).loc main_arg1) from W1_of_ne m ρ c main_arg1 (by decide)]
  dsimp only [StableHlo.TRef.toBuf, StableHlo.TRef.ofBuf, cast_eq]
  unfold Tail.result Tail.loss Tail.take Tail.inRange Tail.startCol Tail.wrapIdx Tail.flatIdx Tail.flatOf Tail.col0 Tail.col1 Tail.col2
  rfl

/-- THE VALUE RUN: the result buffer at `Tail.result` of the region's result array, the arguments unchanged. -/
theorem run_value : θ_run defs (onTc (τ := τ) (main (F := F))) ⟨m, fun _ => 0, ρ⟩ (fun r => ∀ c : Dev nD,
      r.2.mem ((c.tc : Thread nD τ).loc main_v20) = Tail.result (F := F) (distArr m ρ c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v20 (by decide))).trans (W5_main_v20 m ρ c),
     (h c _ (mem_uc main_arg0 (by decide))).trans (W5_main_arg0 m ρ c),
     (h c _ (mem_uc main_arg1 (by decide))).trans (W5_main_arg1 m ρ c)⟩) (run_all m ρ)

end Cert.KernelIdeal.Region

end
-- ==== Proof.KIArr.lean ====
/-
  From the result array's blocks to the whole array: entry (i, j) of the 4096 × 4096 result, after all sixteen grid
  points have written their block back, is the output block's entry at (i mod 1024, j mod 1024) of the point
  (i / 1024, j / 1024) — a function of row i and row j of `x` alone whenever the block's entry (p, q) is one of
  row p of the first input block and row q of the second.
-/
import proofs.«414802_j44513041056151_3_alg».proof.Proof.KIBody
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

namespace Arr

/-- The block indices of the three windows at a grid point, decided over the sixteen points: the first input's row block is
    the output's row block, the second input's row block is the output's column block, both inputs sit at column block 0,
    and the output's block indices stay below 4. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 3 :=
  (by decide +kernel : ∀ t : Fin grid0.N, _)

/-- Every block of the result is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- Row `i` of `x` as the region finds it. -/
def rowOf (c : Dev nD) (i : Fin 4096) : Fin 512 → Elt F .f32 :=
  fun k => (V c main_arg0 : S4096x512.Idx → Elt F .f32) (ix2 i k)

/-- The whole result as one function of the rows of `x`: entry (i, j) is the rule `E` of row i and row j. -/
def arrOf (c : Dev nD) (E : (Fin 512 → Elt F .f32) → (Fin 512 → Elt F .f32) → Elt F .f32) : S4096x4096.Idx → Elt F .f32 :=
  fun y => E (rowOf V c (y 0)) (rowOf V c (y 1))

/-- The rule `E` at any index of the output block, by its two coordinates. -/
theorem outBlk_apply (E : (Fin 512 → Elt F .f32) → (Fin 512 → Elt F .f32) → Elt F .f32)
    (hE : ∀ (x0 x1 : Vec F S1024x512 .f32) (p q : Fin 1024), outBlk x0 x1 (ix2 p q) = E (fun k => x0 (ix2 p k)) (fun k => x1 (ix2 q k)))
    (x0 x1 : Vec F S1024x512 .f32) (y : S1024x1024.Idx) :
    outBlk x0 x1 y = E (fun k => x0 (ix2 (y 0) k)) (fun k => x1 (ix2 (y 1) k)) :=
  (congrArg (outBlk x0 x1) (eq_ix2 y)).trans (hE x0 x1 (y 0) (y 1))

/-- Row `p` of the first input block at point `t` is row `i` of `x`, where `i` is `p` past the start of the output's
    row block: the first input moves with the output's rows, at column block 0. -/
theorem iblk0_row (c : Dev nD) (t : Fin cfg0.N) (p : Fin 1024) (i : Fin 4096)
    (hi : i.val = win0_2.index t (0 : Fin 2) * 1024 + p.val) :
    (fun k : Fin 512 => iblk V c 0 t (ix2 p k : S1024x512.Idx)) = rowOf V c i := by
  obtain ⟨e0, e1, e2, e3, e4, e5⟩ := idx_facts t
  funext k
  show (V c main_arg0 : S4096x512.Idx → Elt F .f32) (((cfg0.win 0).blk t).view.emb (ix2 p k : S1024x512.Idx))
    = (V c main_arg0 : S4096x512.Idx → Elt F .f32) (ix2 i k)
  refine congrArg _ ?_
  funext a; apply Fin.ext
  match a with
  | ⟨0, _⟩ => show win0_0.index t (0 : Fin 2) * 1024 + 1 * p.val = i.val; omega
  | ⟨1, _⟩ => show win0_0.index t (1 : Fin 2) * 512 + 1 * k.val = k.val; omega

/-- Row `q` of the second input block at point `t` is row `j` of `x`, where `j` is `q` past the start of the output's
    column block: the second input moves with the output's columns, at column block 0. -/
theorem iblk1_row (c : Dev nD) (t : Fin cfg0.N) (q : Fin 1024) (j : Fin 4096)
    (hj : j.val = win0_2.index t (1 : Fin 2) * 1024 + q.val) :
    (fun k : Fin 512 => iblk V c 1 t (ix2 q k : S1024x512.Idx)) = rowOf V c j := by
  obtain ⟨e0, e1, e2, e3, e4, e5⟩ := idx_facts t
  funext k
  show (V c main_arg0 : S4096x512.Idx → Elt F .f32) (((cfg0.win 1).blk t).view.emb (ix2 q k : S1024x512.Idx))
    = (V c main_arg0 : S4096x512.Idx → Elt F .f32) (ix2 j k)
  refine congrArg _ ?_
  funext a; apply Fin.ext
  match a with
  | ⟨0, _⟩ => show win0_1.index t (0 : Fin 2) * 1024 + 1 * q.val = j.val; omega
  | ⟨1, _⟩ => show win0_1.index t (1 : Fin 2) * 512 + 1 * k.val = k.val; omega

/-- What point `t` writes back is its block of `arrOf`. -/
theorem flushed_eq (c : Dev nD) (E : (Fin 512 → Elt F .f32) → (Fin 512 → Elt F .f32) → Elt F .f32)
    (hE : ∀ (x0 x1 : Vec F S1024x512 .f32) (p q : Fin 1024), outBlk x0 x1 (ix2 p q) = E (fun k => x0 (ix2 p k)) (fun k => x1 (ix2 q k)))
    (t : Fin cfg0.N) :
    (dat V c).flushed 2 t = ((cfg0.win 2).blk t).view.read (Elt F) (arrOf V c E) := by
  show (cfg0.win 2).cut (grid0.coords t) ((dat V c).after 2 t) = _
  rw [after_2]
  funext y
  show outBlk (iblk V c 0 t) (iblk V c 1 t) y = arrOf V c E (((cfg0.win 2).blk t).view.emb y)
  rw [outBlk_apply E hE]
  refine congrArg₂ E (iblk0_row V c t _ _ ?_) (iblk1_row V c t _ _ ?_)
  · show win0_2.index t (0 : Fin 2) * 1024 + 1 * (y 0).val = win0_2.index t (0 : Fin 2) * 1024 + (y 0).val
    omega
  · show win0_2.index t (1 : Fin 2) * 1024 + 1 * (y 1).val = win0_2.index t (1 : Fin 2) * 1024 + (y 1).val
    omega

/-- An index of the result is in point `t`'s block iff each coordinate is in the block's range on its axis. -/
theorem mem_blk (t : Fin cfg0.N) (y : S4096x4096.Idx) :
    y ∈ ((cfg0.win 2).blk t).view.set ↔ ∀ a : Fin 2, win0_2.index t a * S1024x1024.size a ≤ (y a).val ∧ (y a).val < win0_2.index t a * S1024x1024.size a + S1024x1024.size a := by
  show y ∈ ((View.whole main_v0).slice (win0_2.rect t)).set ↔ _
  rw [View.set_slice_whole, Rect.mem_set_unit]
  exact Iff.rfl

/-- The sixteen blocks tile the result: index (i, j) is in the block of the point whose block indices are
    (i / 1024, j / 1024). -/
theorem cover (y : S4096x4096.Idx) :
    ∃ t : Fin cfg0.N, (cfg0.win 2).flush t = true ∧ y ∈ ((cfg0.win 2).blk t).view.set := by
  have hy0 : (y 0).val < 4096 := (y 0).isLt
  have hy1 : (y 1).val < 4096 := (y 1).isLt
  obtain ⟨t, ht⟩ := idx_onto ⟨(y 0).val / 1024, by omega⟩ ⟨(y 1).val / 1024, by omega⟩
  have q0 : win0_2.index t (0 : Fin 2) = (y 0).val / 1024 := congrFun ht 0
  have q1 : win0_2.index t (1 : Fin 2) = (y 1).val / 1024 := congrFun ht 1
  refine ⟨t, flush0_2 t, ?_⟩
  rw [mem_blk]
  intro a
  match a with
  | ⟨0, _⟩ => show win0_2.index t (0 : Fin 2) * 1024 ≤ (y 0).val ∧ (y 0).val < win0_2.index t (0 : Fin 2) * 1024 + 1024; omega
  | ⟨1, _⟩ => show win0_2.index t (1 : Fin 2) * 1024 ≤ (y 1).val ∧ (y 1).val < win0_2.index t (1 : Fin 2) * 1024 + 1024; omega

/-- The result array after the region is `arrOf`. -/
theorem arr_eq (c : Dev nD) (E : (Fin 512 → Elt F .f32) → (Fin 512 → Elt F .f32) → Elt F .f32)
    (hE : ∀ (x0 x1 : Vec F S1024x512 .f32) (p q : Fin 1024), outBlk x0 x1 (ix2 p q) = E (fun k => x0 (ix2 p k)) (fun k => x1 (ix2 q k))) :
    (dat V c).arrAt 2 cfg0.N = arrOf V c E :=
  (dat V c).arrAt_eq_of_cover 2 (arrOf V c E) (fun t _ => flushed_eq V c E hE t) cover

end Arr

open Arr

/-- Entry (i, j) of the result array after the region, for any rule `E` that gives the output block's entries from a
    row of each input block. -/
theorem arr_apply (c : Dev nD) (E : (Fin 512 → Elt F .f32) → (Fin 512 → Elt F .f32) → Elt F .f32)
    (hE : ∀ (x0 x1 : Vec F S1024x512 .f32) (p q : Fin 1024), outBlk x0 x1 (ix2 p q) = E (fun k => x0 (ix2 p k)) (fun k => x1 (ix2 q k)))
    (i j : Fin 4096) :
    ((dat V c).arrAt 2 cfg0.N : S4096x4096.Idx → Elt F .f32) (ix2 i j)
      = E (fun k => (V c main_arg0 : S4096x512.Idx → Elt F .f32) (ix2 i k)) (fun k => (V c main_arg0 : S4096x512.Idx → Elt F .f32) (ix2 j k)) := by
  rw [arr_eq V c E hE]
  rfl

end Cert.KernelIdeal.Region

end
-- ==== Proof.Spec.lean ====
/-
  One entry of the clipped pairwise squared-distance matrix, as a function of the two rows it depends on.

  For rows r, s of length 512 over the extended reals the entry is max (|r|² + |s|² − 2·⟨r, s⟩, 0), where |r|² is the zero
  word plus the sum of the squares (both programs start their row sums from the constant 0.0) and the literals 2.0 and
  0.0 are the programs' own words, read at the ideal instance.
-/
import Idealize.ShloMosaic.PureOps.Ideal
import Idealize.ShloMosaic.Lib.ValueIdx

noncomputable section

namespace Cert.Spec

open Idealize.ShloMosaic

/-- The sum of a row's squares, started from the zero word. -/
def sumSq (r : Fin 512 → EReal) : EReal := Ideal.ofBits .f32 0x00000000#32 + ∑ k : Fin 512, r k * r k

/-- The inner product of two rows. -/
def inner (r s : Fin 512 → EReal) : EReal := ∑ k : Fin 512, r k * s k

/-- The distance entry of two rows: max (|r|² + |s|² − 2·⟨r, s⟩, 0). -/
def entry (r s : Fin 512 → EReal) : EReal :=
  max ((sumSq r + sumSq s) - Ideal.ofBits .f32 0x40000000#32 * inner r s) (Ideal.ofBits .f32 0x00000000#32)

end Cert.Spec

end
-- ==== Proof.KIPayload.lean ====
/-
  The output block's entry (p, q) at the ideal instance: the kernel body's value is max (|x0 p|² + |x1 q|² − 2·⟨x0 p, x1 q⟩, 0),
  the distance entry of row p of the first input block and row q of the second. The change of format before the matrix
  product is the identity on the extended reals, the product into a zero accumulator is the plain sum over the
  contracted axis, and a lane sum is the zero word plus the sum.
-/
import proofs.«414802_j44513041056151_3_alg».proof.Proof.KIBody
import proofs.«414802_j44513041056151_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.ValueIdx

/-! The steps of the payload, each read at an index. -/
namespace Payload

/-- The whole-block rectangle's offsets are all zero. -/
theorem offs_zero : (![0, 0] : Fin 2 → Nat) = fun _ => 0 := funext fun a => by fin_cases a <;> rfl

/-! ## The keepdims layout steps, read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's lane sum -/

/-- The reduced index `p` with lane `k` put back is `(p, k)`. -/
theorem lift_row (p : Fin 1024) (k : Fin (S1024x512.size 1)) :
    reduces_S1024x512_S1024.lift (ix1 p) k = ix2 p (⟨k.val, k.isLt⟩ : Fin 512) := by
  funext c; apply Fin.ext
  fin_cases c <;> rfl

/-- The sum over the lanes of a block, at row `p`, is the sum of that row (the accumulator word is the neutral one). -/
theorem laneSum_apply (x : FVec Ideal S1024x512 .f32) (p : Fin 1024) :
    multiReduction (F := Ideal) .add [1] S1024 x 0x00000000#32 reduces_S1024x512_S1024 (.inl rfl) rfl (ix1 p)
      = ∑ k : Fin 512, x (ix2 p k) :=
  (Ideal.multiReduction_add_single x 0x00000000#32 reduces_S1024x512_S1024 (.inl rfl) rfl (ix1 p)).trans
    (Finset.sum_congr rfl fun k _ => congrArg x (lift_row p k))

/-! ## The matrix product into the zero accumulator -/

/-- The left operand's index at output `i` and contraction index `c`: row `i 0` … -/
theorem lhs_gram_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and the contracted lane. -/
theorem lhs_gram_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
/-- The right operand's index: row `i 1` … -/
theorem rhs_gram_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and the contracted lane. -/
theorem rhs_gram_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The product of the two blocks (both contracted along their lanes) into the zero accumulator is, at `(p, q)`, the
    inner product of row `p` of the first and row `q` of the second; the change of format is the identity. -/
theorem gram_apply (x0 x1 : FVec Ideal S1024x512 .f32) (p q : Fin 1024) :
    matmul dot_S1024x512_S1024x512_S1024x1024_1_1_0_0_n_n none (truncf .bf16 x0 bitsLt_bf16_f32)
        (truncf .bf16 x1 bitsLt_bf16_f32) (constant (F := Ideal) S1024x1024 .f32 0x00000000#32) (ix2 p q)
      = ∑ k : Fin 512, x0 (ix2 p k) * x1 (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_gram_0 _ _
    | ⟨1, _⟩ => exact (lhs_gram_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_gram_0 _ _
    | ⟨1, _⟩ => exact (rhs_gram_1 _ _).trans hk)
  rw [el, er]
  rfl

/-! ## The two broadcast squared norms -/

/-- The column of row sums of a block, spread over the lanes, is at `(p, q)` the sum of row `p`. -/
theorem rowSums_apply (x : FVec Ideal S1024x512 .f32) (p q : Fin 1024) :
    broadcastTo S1024x1024
        (shapeCast S1024x1 (multiReduction (F := Ideal) .add [1] S1024 x 0x00000000#32 reduces_S1024x512_S1024 (.inl rfl) rfl)
          shapeCasts_S1024_S1024x1)
        broadcasts_S1024x1_S1024x1024 (ix2 p q)
      = ∑ k : Fin 512, x (ix2 p k) :=
  (broadcastTo_a1_ab_apply _ _ p q).trans ((shapeCast_a_a1_apply _ _ p 0).trans (laneSum_apply x p))

/-- The same column turned into a row and spread over the rows is at `(p, q)` the sum of row `q`. -/
theorem colSums_apply (x : FVec Ideal S1024x512 .f32) (p q : Fin 1024) :
    broadcastTo S1024x1024
        (transpose S1x1024 [1, 0]
          (shapeCast S1024x1 (multiReduction (F := Ideal) .add [1] S1024 x 0x00000000#32 reduces_S1024x512_S1024 (.inl rfl) rfl)
            shapeCasts_S1024_S1024x1)
          transposes_S1024x1_p1_0_S1x1024)
        broadcasts_S1x1024_S1024x1024 (ix2 p q)
      = ∑ k : Fin 512, x (ix2 q k) :=
  (broadcastTo_1b_ab_apply _ _ p q).trans
    ((transpose_ix2_apply _ _ (0 : Fin 1) q).trans ((shapeCast_a_a1_apply _ _ q 0).trans (laneSum_apply x q)))

end Payload

open Payload

/-! ## The payload at an index -/

/-- The output block after the body, at (p, q), is the distance entry of the two rows. -/
theorem outBlk_apply (x0 x1 : Vec Ideal S1024x512 .f32) (p q : Fin 1024) :
    outBlk (F := Ideal) x0 x1 (ix2 p q) = Cert.Spec.entry (fun k => x0 (ix2 p k)) (fun k => x1 (ix2 q k)) := by
  unfold outBlk
  rw [View.canon_unit_zero offs_zero]
  simp only [View.ld_unit_zero (S := S1024x512) offs_zero]
  unfold k0_pay1
  rw [maximumf_apply, subf_apply, addf_apply, mulf_apply, broadcast_apply, broadcast_apply]
  refine (congrArg (fun t => max t _) (congrArg₂ (· - ·) (congrArg₂ (· + ·) (rowSums_apply (mulf x0 x0) p q) (colSums_apply (mulf x1 x1) p q))
    (congrArg (_ * ·) (gram_apply x0 x1 p q)))).trans ?_
  -- each squared norm of the specification starts from the zero word, which adds nothing
  have hz : ∀ t : EReal, Ideal.ofBits .f32 0x00000000#32 + t = t := fun t => by rw [Ideal.ofBits_zero_f32, zero_add]
  unfold Cert.Spec.entry Cert.Spec.sumSq Cert.Spec.inner
  rw [hz, hz]
  rfl

end Cert.KernelIdeal.Region

end
-- ==== Proof.RefValue.lean ====
/-
  The reference's clipped distance matrix read at an index: entry (i, j) is the distance entry of rows i and j of `x`.
-/
import proofs.«414802_j44513041056151_3_alg».proof.Proof.Gen.ReferenceIdeal.Run
import proofs.«414802_j44513041056151_3_alg».proof.Proof.Gen.ReferenceIdeal.Read
import proofs.«414802_j44513041056151_3_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where the operands are read

Entry (i, j) of the matrix reads the row sums at i (through the column broadcast) and at j (through the row broadcast),
and the product of `x` with its transpose at row i and column j; the four composed index maps below are the coordinates
(i, k) and (j, k) of `x`. -/

/-- The row-sum broadcast along the columns reads row i of the squares at column k. -/
theorem row_idx (i j : Fin 4096) (k : Fin 512) :
    idx_main_v1 (idx_main_v2 (idx_main_v4 (ix2 i j))) k = ix2 i k :=
  funext fun a => Fin.ext (by match a with | ⟨0, _⟩ => rfl | ⟨1, _⟩ => rfl)

/-- The row-sum broadcast along the rows reads row j of the squares at column k. -/
theorem col_idx (i j : Fin 4096) (k : Fin 512) :
    idx_main_v1 (idx_main_v3 (idx_main_v5 (ix2 i j))) k = ix2 j k :=
  funext fun a => Fin.ext (by match a with | ⟨0, _⟩ => rfl | ⟨1, _⟩ => rfl)

/-- The contraction's left operand is read at (i, k). -/
theorem lhs_idx (i j : Fin 4096) (k : Fin 512) : lidx_main_v8 (ix2 i j) k = ix2 i k :=
  funext fun a => Fin.ext (by match a with | ⟨0, _⟩ => rfl | ⟨1, _⟩ => rfl)

/-- The contraction's right operand is the transpose at (k, j), that is `x` at (j, k). -/
theorem rhs_idx (i j : Fin 4096) (k : Fin 512) : idx_main_v7 (ridx_main_v8 (ix2 i j) k) = ix2 j k :=
  funext fun a => Fin.ext (by match a with | ⟨0, _⟩ => rfl | ⟨1, _⟩ => rfl)

/-- The reference's distance matrix at (i, j): max ((0 + Σₖ x(i,k)²) + (0 + Σₖ x(j,k)²) − 2 · Σₖ x(i,k) · x(j,k), 0)
    on the extended reals, which is the distance entry of rows i and j by definition. -/
theorem dist_apply (x : (⟨S4096x512, .f32⟩ : BufTy).Contents (Elt Ideal)) (i j : Fin 4096) :
    val_main_v13 (F := Ideal) x (ix2 i j) = Cert.Spec.entry (fun k => x (ix2 i k)) (fun k => x (ix2 j k)) := by
  rw [val_main_v13_apply, val_main_v11_apply, val_main_v12_apply, val_main_cst_1_apply, val_main_v6_apply,
    val_main_v10_apply, val_main_v9_apply, val_main_cst_0_apply, val_main_v8_apply, val_main_v4_apply,
    val_main_v5_apply, val_main_v2_apply, val_main_v3_apply, val_main_v1_apply, val_main_v1_apply,
    val_main_cst_apply]
  simp only [val_main_v0_apply, val_main_v7_apply, row_idx, col_idx, lhs_idx, rhs_idx, Ideal.ofBits_def,
    Ideal.addf_def, Ideal.subf_def, Ideal.mulf_def, Ideal.maximumf_def]
  rfl

end Cert.ReferenceIdeal.RefValue

end
-- ==== Proof.BridgeDefs.lean ====
/-
  A triplet entry as a row index of the distance matrix: under the range hypothesis its signed reading is a natural
  number below 4096.
-/
import Idealize.ShloMosaic.PureOps
import Idealize.ShloMosaic.Lib.ValueIdx

noncomputable section

namespace Cert.Bridge

open Idealize.ShloMosaic Idealize.ShloMosaic.ValueIdx

/-- Every entry of the triplet array is in [0, 4096). -/
abbrev InRange (t : IVec (⟨2, ![65536, 3]⟩ : Shape) 32) : Prop := ∀ y, 0 ≤ (t y).toInt ∧ (t y).toInt < 4096

/-- Entry (p, k) of the triplet array as a row index. -/
def row (t : IVec (⟨2, ![65536, 3]⟩ : Shape) 32) (hr : InRange t) (p : Fin 65536) (k : Fin 3) : Fin 4096 :=
  ⟨(t (ix2 p k)).toInt.toNat, by have h := hr (ix2 p k); omega⟩

theorem row_val (t : IVec (⟨2, ![65536, 3]⟩ : Shape) 32) (hr : InRange t) (p : Fin 65536) (k : Fin 3) :
    ((row t hr p k).val : Int) = (t (ix2 p k)).toInt := by
  have h := hr (ix2 p k)
  show (((t (ix2 p k)).toInt.toNat : Nat) : Int) = _
  omega

end Cert.Bridge

end
-- ==== Proof.BridgeRef.lean ====
/-
  The reference's lookup read at one triplet: after the wrap of negative coordinates (which moves nothing when the
  coordinates are non-negative) the two-coordinate gather clamps each start coordinate into [0, 4095] (which moves nothing
  when they are below 4096) and reads the matrix there.
-/
import proofs.«414802_j44513041056151_3_alg».proof.Proof.BridgeDefs
import proofs.«414802_j44513041056151_3_alg».proof.Proof.Gen.ReferenceIdeal.Read
import Idealize.ShloMosaic.Lib.ValueIdx
import Idealize.ShloMosaic.Lib.StableHlo.Predicate
import Idealize.ShloMosaic.Lib.Pipeline.Value

noncomputable section

namespace Cert.Bridge

open Idealize.ShloMosaic Idealize.ShloMosaic.ValueIdx
open Cert.ReferenceIdeal Cert.ReferenceIdeal.Read

variable {F : FTy → Type} [FloatOps F]

/-! ## A two-coordinate point lookup read at one position

Both operand axes are collapsed and start-indexed, the slices have size one and there are no batching or offset axes, so
result position p reads the matrix at (start₀, start₁): start component c is the start-index array at (p, c), read signed
and clamped into [0, 4096 − 1]. -/

/-- The row coordinate read at position p: the clamped start component 0. -/
theorem start0 (idx : IVec S65536x2 32) (p : Fin 65536) :
    (gather_S4096x4096_S65536x2_S65536_n_01_n_n_01_1_11.operandIdx (ix1 p) idx 0).val
      = min (idx (ix2 p 0)).toInt.toNat 4095 := by
  show gather_S4096x4096_S65536x2_S65536_n_01_n_n_01_1_11.start (ix1 p) idx 0
      + gather_S4096x4096_S65536x2_S65536_n_01_n_n_01_1_11.batchCoord (ix1 p) 0
      + gather_S4096x4096_S65536x2_S65536_n_01_n_n_01_1_11.offCoord (ix1 p) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S4096x4096.rank) ∈ gather_S4096x4096_S65536x2_S65536_n_01_n_n_01_1_11.startIndexMap from by decide)]
  have hsi : gather_S4096x4096_S65536x2_S65536_n_01_n_n_01_1_11.siIdx (ix1 p)
      ⟨List.idxOf (0 : Fin S4096x4096.rank) gather_S4096x4096_S65536x2_S65536_n_01_n_n_01_1_11.startIndexMap,
        List.idxOf_lt_length_iff.2 (by decide)⟩ = ix2 p 0 := by
    funext b; refine Fin.ext ?_
    match b with
    | ⟨0, _⟩ => rfl
    | ⟨1, _⟩ => rfl
  rw [hsi]
  rfl

/-- The column coordinate read at position p: the clamped start component 1. -/
theorem start1 (idx : IVec S65536x2 32) (p : Fin 65536) :
    (gather_S4096x4096_S65536x2_S65536_n_01_n_n_01_1_11.operandIdx (ix1 p) idx 1).val
      = min (idx (ix2 p 1)).toInt.toNat 4095 := by
  show gather_S4096x4096_S65536x2_S65536_n_01_n_n_01_1_11.start (ix1 p) idx 1
      + gather_S4096x4096_S65536x2_S65536_n_01_n_n_01_1_11.batchCoord (ix1 p) 1
      + gather_S4096x4096_S65536x2_S65536_n_01_n_n_01_1_11.offCoord (ix1 p) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S4096x4096.rank) ∈ gather_S4096x4096_S65536x2_S65536_n_01_n_n_01_1_11.startIndexMap from by decide)]
  have hsi : gather_S4096x4096_S65536x2_S65536_n_01_n_n_01_1_11.siIdx (ix1 p)
      ⟨List.idxOf (1 : Fin S4096x4096.rank) gather_S4096x4096_S65536x2_S65536_n_01_n_n_01_1_11.startIndexMap,
        List.idxOf_lt_length_iff.2 (by decide)⟩ = ix2 p 1 := by
    funext b; refine Fin.ext ?_
    match b with
    | ⟨0, _⟩ => rfl
    | ⟨1, _⟩ => rfl
  rw [hsi]
  rfl

/-- The lookup at position p is the matrix at the two clamped start coordinates. -/
theorem gather_point {α : Type} (d : S4096x4096.Idx → α) (idx : IVec S65536x2 32) (p : Fin 65536) :
    Host.gather gather_S4096x4096_S65536x2_S65536_n_01_n_n_01_1_11 d idx (ix1 p)
      = d (ix2 (n0 := 4096) (n1 := 4096) ⟨min (idx (ix2 p 0)).toInt.toNat 4095, by omega⟩
          ⟨min (idx (ix2 p 1)).toInt.toNat 4095, by omega⟩) := by
  unfold Host.gather
  congr 1
  funext a
  refine Fin.ext ?_
  match a with
  | ⟨0, _⟩ => exact start0 idx p
  | ⟨1, _⟩ => exact start1 idx p

/-! ## The wrapped columns

The reference's indexing replaces a coordinate x by x + 4096 when x < 0 (signed) and keeps it otherwise; a non-negative
word is kept. Column k of the triplet array reaches the lookup as a slice, a reshape, this wrap and a broadcast to a column. -/

/-- A word that reads non-negative is not below 0, so the wrap keeps it. -/
theorem wrap_nonneg (x : BitVec 32) (hx : 0 ≤ x.toInt) :
    Scalar.select (IntOp.cmpi .slt x 0#32) (IntOp.addi x 4096#32) x = x := by
  have hz : (0#32 : BitVec 32).toInt = 0 := by decide
  have hc : IntOp.cmpi .slt x 0#32 = 0#1 :=
    eq_zero_of_ne_one fun h => by have := IntOp.cmpi_slt.1 h; omega
  rw [hc, select_zero]

/-- Position p of the reshaped slice of column 0 is entry (p, 0) … -/
theorem at_col0 (p : Fin 65536) : idx_main_v14 (idx_main_v15 (ix1 p)) = ix2 p 0 :=
  funext fun a => Fin.ext (by match a with | ⟨0, _⟩ => exact Nat.div_one _ | ⟨1, _⟩ => rfl)
/-- … of column 1, entry (p, 1) … -/
theorem at_col1 (p : Fin 65536) : idx_main_v16 (idx_main_v17 (ix1 p)) = ix2 p 1 :=
  funext fun a => Fin.ext (by match a with | ⟨0, _⟩ => exact Nat.div_one _ | ⟨1, _⟩ => rfl)
/-- … and of column 2, entry (p, 2). -/
theorem at_col2 (p : Fin 65536) : idx_main_v18 (idx_main_v19 (ix1 p)) = ix2 p 2 :=
  funext fun a => Fin.ext (by match a with | ⟨0, _⟩ => exact Nat.div_one _ | ⟨1, _⟩ => rfl)

/-- The wrapped column 0 (first lookup) at p is t[p, 0]. -/
theorem v24_at (t : IVec S65536x3 32) (hr : InRange t) (p : Fin 65536) :
    val_main_v24 (F := F) t (ix1 p) = t (ix2 p 0) := by
  rw [val_main_v24_apply, val_main_v21_apply, val_main_v23_apply, val_main_v20_apply, val_main_c_apply,
    val_main_v22_apply, val_main_c_2_apply, val_main_v15_apply, val_main_v14_apply, at_col0]
  exact wrap_nonneg _ (hr _).1

/-- The wrapped column 1 at p is t[p, 1]. -/
theorem v29_at (t : IVec S65536x3 32) (hr : InRange t) (p : Fin 65536) :
    val_main_v29 (F := F) t (ix1 p) = t (ix2 p 1) := by
  rw [val_main_v29_apply, val_main_v26_apply, val_main_v28_apply, val_main_v25_apply, val_main_c_3_apply,
    val_main_v27_apply, val_main_c_4_apply, val_main_v17_apply, val_main_v16_apply, at_col1]
  exact wrap_nonneg _ (hr _).1

/-- The wrapped column 0 (second lookup) at p is t[p, 0]. -/
theorem v38_at (t : IVec S65536x3 32) (hr : InRange t) (p : Fin 65536) :
    val_main_v38 (F := F) t (ix1 p) = t (ix2 p 0) := by
  rw [val_main_v38_apply, val_main_v35_apply, val_main_v37_apply, val_main_v34_apply, val_main_c_5_apply,
    val_main_v36_apply, val_main_c_6_apply, val_main_v15_apply, val_main_v14_apply, at_col0]
  exact wrap_nonneg _ (hr _).1

/-- The wrapped column 2 at p is t[p, 2]. -/
theorem v43_at (t : IVec S65536x3 32) (hr : InRange t) (p : Fin 65536) :
    val_main_v43 (F := F) t (ix1 p) = t (ix2 p 2) := by
  rw [val_main_v43_apply, val_main_v40_apply, val_main_v42_apply, val_main_v39_apply, val_main_c_7_apply,
    val_main_v41_apply, val_main_c_8_apply, val_main_v19_apply, val_main_v18_apply, at_col2]
  exact wrap_nonneg _ (hr _).1

/-! ## The joined start-index array

Two [65536 × 1] columns joined along axis 1: at (p, 0) the first column at (p, 0), at (p, 1) the second at (p, 0). -/

theorem pair_left {α : Type} (x₁ x₂ : S65536x1.Idx → α) (p : Fin 65536) :
    concatenate S65536x2 1 [⟨S65536x1, x₁⟩, ⟨S65536x1, x₂⟩] Facts₀.concatenates_S65536x1_S65536x1_S65536x2_d1
      (ix2 p (0 : Fin 2)) = x₁ (ix2 p (0 : Fin 1)) :=
  concatenate_pair_apply_left 1 x₁ x₂ Facts₀.concatenates_S65536x1_S65536x1_S65536x2_d1 (ix2 p (0 : Fin 2)) rfl
    (ix2 p (0 : Fin 1)) (fun b => by match b with | ⟨0, _⟩ => rfl | ⟨1, _⟩ => rfl)

theorem pair_right {α : Type} (x₁ x₂ : S65536x1.Idx → α) (p : Fin 65536) :
    concatenate S65536x2 1 [⟨S65536x1, x₁⟩, ⟨S65536x1, x₂⟩] Facts₀.concatenates_S65536x1_S65536x1_S65536x2_d1
      (ix2 p (1 : Fin 2)) = x₂ (ix2 p (0 : Fin 1)) :=
  concatenate_pair_apply_right 1 x₁ x₂ Facts₀.concatenates_S65536x1_S65536x1_S65536x2_d1 (ix2 p (1 : Fin 2)) rfl rfl
    (ix2 p (0 : Fin 1)) (fun b => by match b with | ⟨0, _⟩ => exact fun _ => rfl | ⟨1, _⟩ => exact fun h => absurd rfl h) rfl

/-- A vector broadcast to a column reads, at (p, 0), the vector at p (the four columns of the two lookups). -/
theorem at_v30 (p : Fin 65536) : idx_main_v30 (ix2 p (0 : Fin 1)) = ix1 p :=
  funext fun a => Fin.ext (by match a with | ⟨0, _⟩ => rfl)
theorem at_v31 (p : Fin 65536) : idx_main_v31 (ix2 p (0 : Fin 1)) = ix1 p :=
  funext fun a => Fin.ext (by match a with | ⟨0, _⟩ => rfl)
theorem at_v44 (p : Fin 65536) : idx_main_v44 (ix2 p (0 : Fin 1)) = ix1 p :=
  funext fun a => Fin.ext (by match a with | ⟨0, _⟩ => rfl)
theorem at_v45 (p : Fin 65536) : idx_main_v45 (ix2 p (0 : Fin 1)) = ix1 p :=
  funext fun a => Fin.ext (by match a with | ⟨0, _⟩ => rfl)

/-! ## The two lookups

Each start coordinate is a triplet entry v with 0 ≤ v < 4096, so min (v, 4095) = v: the entry as a row index. -/

/-- The reference's positive lookup at triplet p reads entry (t[p,0], t[p,1]). -/
theorem ref_gather_pos (d : FVec F S4096x4096 .f32) (t : IVec S65536x3 32) (hr : InRange t) (p : Fin 65536) :
    Host.gather gather_S4096x4096_S65536x2_S65536_n_01_n_n_01_1_11 d (val_main_v32 (F := F) t) (ix1 p)
      = d (ix2 (row t hr p 0) (row t hr p 1)) := by
  rw [gather_point]
  refine congrArg d (congrArg₂ (ix2 (n0 := 4096) (n1 := 4096)) (Fin.ext ?_) (Fin.ext ?_))
  · show min (val_main_v32 (F := F) t (ix2 p 0)).toInt.toNat 4095 = (t (ix2 p 0)).toInt.toNat
    unfold val_main_v32
    rw [pair_left, val_main_v30_apply, at_v30, v24_at t hr p]
    have h := hr (ix2 p 0)
    exact Nat.min_eq_left (by omega)
  · show min (val_main_v32 (F := F) t (ix2 p 1)).toInt.toNat 4095 = (t (ix2 p 1)).toInt.toNat
    unfold val_main_v32
    rw [pair_right, val_main_v31_apply, at_v31, v29_at t hr p]
    have h := hr (ix2 p 1)
    exact Nat.min_eq_left (by omega)

/-- The reference's negative lookup at triplet p reads entry (t[p,0], t[p,2]). -/
theorem ref_gather_neg (d : FVec F S4096x4096 .f32) (t : IVec S65536x3 32) (hr : InRange t) (p : Fin 65536) :
    Host.gather gather_S4096x4096_S65536x2_S65536_n_01_n_n_01_1_11 d (val_main_v46 (F := F) t) (ix1 p)
      = d (ix2 (row t hr p 0) (row t hr p 2)) := by
  rw [gather_point]
  refine congrArg d (congrArg₂ (ix2 (n0 := 4096) (n1 := 4096)) (Fin.ext ?_) (Fin.ext ?_))
  · show min (val_main_v46 (F := F) t (ix2 p 0)).toInt.toNat 4095 = (t (ix2 p 0)).toInt.toNat
    unfold val_main_v46
    rw [pair_left, val_main_v44_apply, at_v44, v38_at t hr p]
    have h := hr (ix2 p 0)
    exact Nat.min_eq_left (by omega)
  · show min (val_main_v46 (F := F) t (ix2 p 1)).toInt.toNat 4095 = (t (ix2 p 2)).toInt.toNat
    unfold val_main_v46
    rw [pair_right, val_main_v45_apply, at_v45, v43_at t hr p]
    have h := hr (ix2 p 2)
    exact Nat.min_eq_left (by omega)

end Cert.Bridge

end
-- ==== Proof.BridgeKer.lean ====
/-
  The kernel program's lookup read at one triplet: for row indices a, b in [0, 4096) the flat position a·4096 + b is
  computed without overflow, lies in [0, 2²⁴), so it is not wrapped, passes the range test and is not clamped by the
  gather; and the row-major flattening of the matrix has entry (a, b) at that position.
-/
import proofs.«414802_j44513041056151_3_alg».proof.Proof.BridgeDefs
import proofs.«414802_j44513041056151_3_alg».proof.Proof.KITailDefs
import Idealize.ShloMosaic.Lib.ValueIdx
import Idealize.ShloMosaic.Lib.StableHlo.Predicate
import Idealize.ShloMosaic.Lib.Pipeline.Value

noncomputable section

namespace Cert.Bridge

open Idealize.ShloMosaic Idealize.ShloMosaic.ValueIdx
open Cert.KernelIdeal Cert.KernelIdeal.Tail

variable {F : FTy → Type} [FloatOps F]

/-! The stages of the lookup, each read at one triplet. -/
namespace Ker

open Cert.KernelIdeal.Facts₀ Cert.KernelIdeal.Facts
open Idealize.ShloMosaic.StableHlo.Predicate

/-! ## The three columns at a triplet -/

/-- A column vector `[n, 1]` flattened to `[n]` reads, at `p`, the column at `(p, 0)`. -/
theorem dropCol_apply {α : Type} (y : S65536x1.Idx → α) (p : Fin 65536) :
    shapeCast S65536 y shapeCasts_S65536x1_S65536 (ix1 p) = y (ix2 p (0 : Fin 1)) :=
  shapeCast_apply y shapeCasts_S65536x1_S65536 (ix1 p) (ix2 p (0 : Fin 1)) (by
    rw [Shape.rowMajor_val_two, Shape.rowMajor_val_one]
    show p.val * 1 + 0 = p.val
    omega)

theorem col0_apply (t : IVec S65536x3 32) (p : Fin 65536) : col0 t (ix1 p) = t (ix2 p (0 : Fin 3)) := by
  unfold col0
  refine (dropCol_apply _ p).trans ?_
  exact extractStridedSlice_apply ![0, 0] t slices_S65536x3_S65536x1_0_0 (ix2 p (0 : Fin 1)) (ix2 p (0 : Fin 3)) (fun a => match a with
    | ⟨0, _⟩ => by show p.val = 0 + p.val; omega
    | ⟨1, _⟩ => by show 0 = 0 + 0; rfl)

theorem col1_apply (t : IVec S65536x3 32) (p : Fin 65536) : col1 t (ix1 p) = t (ix2 p (1 : Fin 3)) := by
  unfold col1
  refine (dropCol_apply _ p).trans ?_
  exact extractStridedSlice_apply ![0, 1] t slices_S65536x3_S65536x1_0_1 (ix2 p (0 : Fin 1)) (ix2 p (1 : Fin 3)) (fun a => match a with
    | ⟨0, _⟩ => by show p.val = 0 + p.val; omega
    | ⟨1, _⟩ => by show 1 = 1 + 0; rfl)

theorem col2_apply (t : IVec S65536x3 32) (p : Fin 65536) : col2 t (ix1 p) = t (ix2 p (2 : Fin 3)) := by
  unfold col2
  refine (dropCol_apply _ p).trans ?_
  exact extractStridedSlice_apply ![0, 2] t slices_S65536x3_S65536x1_0_2 (ix2 p (0 : Fin 1)) (ix2 p (2 : Fin 3)) (fun a => match a with
    | ⟨0, _⟩ => by show p.val = 0 + p.val; omega
    | ⟨1, _⟩ => by show 2 = 2 + 0; rfl)

/-! ## Words -/

/-- A word whose signed reading is a natural number below 2³¹ has that number as its unsigned reading. -/
theorem toNat_of_toInt {x : BitVec 32} {n : Nat} (h : x.toInt = (n : Int)) : x.toNat = n := by
  have hx := x.isLt
  rw [BitVec.toInt_eq_toNat_cond] at h
  split at h <;> omega

/-- For a, b below 4096 the word a·4096 + b is computed without overflow. -/
theorem flat_toNat {x y : BitVec 32} {a b : Nat} (hx : x.toNat = a) (hy : y.toNat = b) (ha : a < 4096) (hb : b < 4096) :
    (IntOp.addi (IntOp.muli x 4096#32) y).toNat = a * 4096 + b := by
  show (x * 4096#32 + y).toNat = _
  rw [BitVec.toNat_add, BitVec.toNat_mul, hx, hy]
  show (a * 4096 % 2 ^ 32 + b) % 2 ^ 32 = _
  omega

/-! ## The lookup at a position inside the vector -/

/-- The rank-1 index at `p`, written in two ways. -/
theorem ofFin_eq_ix1 {n : Nat} (p : Fin n) : Shape.Idx.ofFin p = ix1 p := by
  funext a; match a with | ⟨0, _⟩ => rfl

/-- A position in [0, 2³¹) is not negative, so it is not moved up by 2²⁴. -/
theorem wrapIdx_apply (idx : IVec S65536 32) (p : Fin 65536) (hv : (idx (ix1 p)).toNat < 2 ^ 31) :
    wrapIdx idx (ix1 p) = idx (ix1 p) := by
  show Scalar.select (IntOp.cmpi .slt (idx (ix1 p)) 0#32) (IntOp.addi (idx (ix1 p)) 16777216#32) (idx (ix1 p)) = _
  unfold Scalar.select
  rw [if_neg]
  intro h
  have := (slt_iff_toNat hv (by decide)).mp h
  simp at this

/-- So row `p` of the table of start indices holds the position itself. -/
theorem startCol_apply (idx : IVec S65536 32) (p : Fin 65536) (hv : (idx (ix1 p)).toNat < 2 ^ 31) :
    startCol idx (ixP p) = idx (ix1 p) := by
  unfold startCol
  rw [bcast_col1 bcast_S65536_S65536x1_0 (wrapIdx idx) p, ofFin_eq_ix1]
  exact wrapIdx_apply idx p hv

/-- A conjunction over one term, from the neutral bit, is the term. -/
theorem fold_andi_fin1 (b : BitVec 1) (f : Fin 1 → BitVec 1) :
    Finset.fold IntOp.andi b f (Finset.univ : Finset (Fin 1)) = IntOp.andi (f 0) b := by
  rw [show (Finset.univ : Finset (Fin 1)) = {0} from rfl]
  exact Finset.fold_singleton

/-- A position in [0, 2²⁴) passes the range test: the conjunction along the unit axis has the one term 0 ≤ v ∧ v ≤ 2²⁴ − 1. -/
theorem inRange_apply (idx : IVec S65536 32) (p : Fin 65536) (hv : (idx (ix1 p)).toNat < 16777216) :
    inRange idx (ix1 p) = 1#1 := by
  have hR : S65536x1.Reduces [1] S65536 := by decide
  have hl : ∀ k : Fin 1, hR.lift (ix1 p) k = ixP p := fun k => by
    funext c; apply Fin.ext
    match c with
    | ⟨0, _⟩ => rfl
    | ⟨1, _⟩ => show k.val = 0; omega
  have h1 : IntOp.cmpi .sge (idx (ix1 p)) 0#32 = 1#1 := (sge_iff_toNat (by omega) (by decide)).mpr (Nat.zero_le _)
  have h2 : IntOp.cmpi .sle (idx (ix1 p)) 16777215#32 = 1#1 :=
    (sle_iff_toNat (by omega) (by decide)).mpr (by rw [show (16777215#32 : BitVec 32).toNat = 16777215 from rfl]; omega)
  unfold inRange
  rw [Host.reduce_eq_fold_single IntOp.andi _ _ reducesTo_S65536x1_S65536_d1 hR h_S_ (ix1 p)]
  refine (fold_andi_fin1 _ _).trans ?_
  show IntOp.andi (IntOp.andi (IntOp.cmpi .sge (startCol idx (hR.lift (ix1 p) (0 : Fin 1))) 0#32)
    (IntOp.cmpi .sle (startCol idx (hR.lift (ix1 p) (0 : Fin 1))) 16777215#32)) 1#1 = 1#1
  rw [hl, startCol_apply idx p (by omega), h1, h2]
  rfl

/-- The lookup at a position n in [0, 2²⁴) reads the vector at n: in range, and the gather's clamp is the identity. -/
theorem take_apply (flat : FVec F S16777216 .f32) (idx : IVec S65536 32) (p : Fin 65536) (n : Nat) (hn : n < 16777216)
    (hidx : (idx (ix1 p)).toNat = n) : take flat idx (ix1 p) = flat (ix1 (⟨n, hn⟩ : Fin 16777216)) := by
  have hv : (idx (ix1 p)).toNat < 16777216 := by omega
  unfold take
  rw [select_apply]
  rw [inRange_apply idx p hv]
  rw [select_one]
  rw [← ofFin_eq_ix1 p]
  have hN : 0 < 16777216 := by omega
  have hg := gather_take gather_S16777216_S65536x1_S65536_n_0_n_n_0_1_1 rfl rfl rfl rfl flat (startCol idx) p hN
  rw [hg]
  refine congrArg flat (funext fun a => Fin.ext ?_)
  match a with
  | ⟨0, _⟩ =>
    show min (startCol idx (ixP p)).toInt.toNat (16777216 - 1) = n
    rw [startCol_apply idx p (by omega), toInt_eq_toNat_of_lt (by omega), hidx]
    omega

/-- The row-major flattening of the matrix has entry (a, b) at position a·4096 + b. -/
theorem flatOf_apply (d : FVec F S4096x4096 .f32) (a b : Fin 4096) (h : a.val * 4096 + b.val < 16777216) :
    flatOf d (ix1 (⟨a.val * 4096 + b.val, h⟩ : Fin 16777216)) = d (ix2 a b) :=
  shapeCast_apply d shapeCasts_S4096x4096_S16777216 _ (ix2 a b) (by
    rw [Shape.rowMajor_val_two, Shape.rowMajor_val_one]; rfl)

/-- The lookup of the flattened matrix at the flat position of two columns whose entries at `p` are the row indices
    a and b reads entry (a, b). -/
theorem take_flat (d : FVec F S4096x4096 .f32) (ca cb : IVec S65536 32) (p : Fin 65536) (a b : Fin 4096)
    (ha : (ca (ix1 p)).toInt = (a.val : Int)) (hb : (cb (ix1 p)).toInt = (b.val : Int)) :
    take (flatOf d) (flatIdx ca cb) (ix1 p) = d (ix2 a b) := by
  have hlt : a.val * 4096 + b.val < 16777216 := by have := a.isLt; have := b.isLt; omega
  have hw : (flatIdx ca cb (ix1 p)).toNat = a.val * 4096 + b.val :=
    flat_toNat (toNat_of_toInt ha) (toNat_of_toInt hb) a.isLt b.isLt
  exact (take_apply (flatOf d) (flatIdx ca cb) p _ hlt hw).trans (flatOf_apply d a b hlt)

end Ker

/-- The kernel program's positive lookup at triplet p reads entry (t[p,0], t[p,1]). -/
theorem ker_take_pos (d : FVec F S4096x4096 .f32) (t : IVec S65536x3 32) (hr : InRange t) (p : Fin 65536) :
    take (flatOf d) (flatIdx (col0 t) (col1 t)) (ix1 p) = d (ix2 (row t hr p 0) (row t hr p 1)) :=
  Ker.take_flat d (col0 t) (col1 t) p (row t hr p 0) (row t hr p 1)
    ((congrArg BitVec.toInt (Ker.col0_apply t p)).trans (row_val t hr p 0).symm)
    ((congrArg BitVec.toInt (Ker.col1_apply t p)).trans (row_val t hr p 1).symm)

/-- The kernel program's negative lookup at triplet p reads entry (t[p,0], t[p,2]). -/
theorem ker_take_neg (d : FVec F S4096x4096 .f32) (t : IVec S65536x3 32) (hr : InRange t) (p : Fin 65536) :
    take (flatOf d) (flatIdx (col0 t) (col2 t)) (ix1 p) = d (ix2 (row t hr p 0) (row t hr p 2)) :=
  Ker.take_flat d (col0 t) (col2 t) p (row t hr p 0) (row t hr p 2)
    ((congrArg BitVec.toInt (Ker.col0_apply t p)).trans (row_val t hr p 0).symm)
    ((congrArg BitVec.toInt (Ker.col2_apply t p)).trans (row_val t hr p 2).symm)

end Cert.Bridge

end
-- ==== Proof.GatherBridge.lean ====
/-
  The two ways of looking up the distance matrix agree on row indices in range.

  The kernel's program flattens the 4096 × 4096 matrix and reads position a·4096 + b with a fill-mode `take`; the
  reference reads entry (a, b) with a two-coordinate gather after the wrap of negative coordinates. For 0 ≤ a, b < 4096
  both read entry (a, b).
-/
import proofs.«414802_j44513041056151_3_alg».proof.Proof.BridgeRef
import proofs.«414802_j44513041056151_3_alg».proof.Proof.BridgeKer

noncomputable section

namespace Cert.Bridge

open Idealize.ShloMosaic Idealize.ShloMosaic.ValueIdx

variable {F : FTy → Type} [FloatOps F]

/-- The positive lookup: the flat take at col0·4096 + col1 is the reference's gather at (col0, col1). -/
theorem take_pos (d : FVec F Cert.KernelIdeal.S4096x4096 .f32) (t : IVec Cert.KernelIdeal.S65536x3 32) (hr : InRange t) :
    Cert.KernelIdeal.Tail.take (Cert.KernelIdeal.Tail.flatOf d)
        (Cert.KernelIdeal.Tail.flatIdx (Cert.KernelIdeal.Tail.col0 t) (Cert.KernelIdeal.Tail.col1 t))
      = Host.gather Cert.ReferenceIdeal.gather_S4096x4096_S65536x2_S65536_n_01_n_n_01_1_11 d
          (Cert.ReferenceIdeal.Read.val_main_v32 (F := F) t) := by
  funext y
  obtain ⟨p, rfl⟩ : ∃ p : Fin 65536, y = ix1 p := ⟨y 0, eq_ix1 y⟩
  exact (ker_take_pos d t hr p).trans (ref_gather_pos d t hr p).symm

/-- The negative lookup: the same at (col0, col2). -/
theorem take_neg (d : FVec F Cert.KernelIdeal.S4096x4096 .f32) (t : IVec Cert.KernelIdeal.S65536x3 32) (hr : InRange t) :
    Cert.KernelIdeal.Tail.take (Cert.KernelIdeal.Tail.flatOf d)
        (Cert.KernelIdeal.Tail.flatIdx (Cert.KernelIdeal.Tail.col0 t) (Cert.KernelIdeal.Tail.col2 t))
      = Host.gather Cert.ReferenceIdeal.gather_S4096x4096_S65536x2_S65536_n_01_n_n_01_1_11 d
          (Cert.ReferenceIdeal.Read.val_main_v46 (F := F) t) := by
  funext y
  obtain ⟨p, rfl⟩ : ∃ p : Fin 65536, y = ix1 p := ⟨y 0, eq_ix1 y⟩
  exact (ker_take_neg d t hr p).trans (ref_gather_neg d t hr p).symm

end Cert.Bridge

end
-- ==== Proof.PreDecode.lean ====
/-
  The precondition read at one element: if the printed predicate is all ones then every entry of the triplet array,
  read as a signed 32-bit integer, lies in [0, 4096) — the range of a row index of the 4096 × 4096 distance matrix.
-/
import proofs.«414802_j44513041056151_3_alg».proof.Pre_finite_inputs
import Idealize.ShloMosaic.Lib.ReduceAll
import Idealize.ShloMosaic.Lib.StableHlo.Predicate

noncomputable section

namespace Cert.PreDecode

open Idealize.ShloMosaic Cert.Pre_finite_inputs

variable [Cert.Pre_finite_inputs.Facts]

/-- Every triplet entry is a row index of the distance matrix. -/
theorem range_of_pre {F : FTy → Type} [FloatOps F] (x : FVec F S4096x512 .f32) (t : IVec S65536x3 32)
    (h : Cert.Pre_finite_inputs.fn (F := F) x t = fun _ => 1#1) (y : S65536x3.Idx) :
    0 ≤ (t y).toInt ∧ (t y).toInt < 4096 := by
  -- the scalar shape has one index, so a conjunction over all axes lands in a single cell
  haveI : Subsingleton S_.Idx := ⟨fun a b => funext fun d => d.elim0⟩
  -- the predicate at its one index is (finite ∧ all (t ≥ 0)) ∧ all (t < 4096), each conjunct the bit 1
  have h0 := congrFun h (fun a => a.elim0)
  dsimp only [Cert.Pre_finite_inputs.fn] at h0
  obtain ⟨h1, hlt⟩ := IntOp.andi_eq_one.1 h0
  obtain ⟨_, hge⟩ := IntOp.andi_eq_one.1 h1
  -- a conjunction over every element that is 1 has a 1 at the element y
  have ge := Host.reduce_andi_all _ _ _ _ _ hge y
  have lt := Host.reduce_andi_all _ _ _ _ _ hlt y
  -- at y the compared words are t y and the broadcast literals 0 and 4096
  have ge' : IntOp.cmpi .sge (t y) 0#32 = 1#1 := ge
  have lt' : IntOp.cmpi .slt (t y) 4096#32 = 1#1 := lt
  -- the signed compares read both words as integers; the literals read 0 and 4096
  have z : (0#32 : BitVec 32).toInt = 0 := by decide
  have k : (4096#32 : BitVec 32).toInt = 4096 := by decide
  exact ⟨z ▸ IntOp.cmpi_sge.1 ge', k ▸ IntOp.cmpi_slt.1 lt'⟩

end Cert.PreDecode

end
-- ==== Proof.Join.lean ====
/-
  The two idealized programs compute one function.

  The kernel region leaves in the result array the reference's clipped distance matrix: entry (i, j) of both is the
  distance entry of rows i and j of `x` (the region's blocks tile the array; the body's value at (p, q) and the
  reference's at (i, j) are the same function of two rows). The host operations after the region then look the matrix
  up at the triplets, through the flat `take` in one program and the two-coordinate gather in the other; for triplets in
  range both read the same entries, and the loss is the same function of the two looked-up vectors.
-/
import proofs.«414802_j44513041056151_3_alg».proof.Proof.KIValue
import proofs.«414802_j44513041056151_3_alg».proof.Proof.KIArr
import proofs.«414802_j44513041056151_3_alg».proof.Proof.KIPayload
import proofs.«414802_j44513041056151_3_alg».proof.Proof.RefValue
import proofs.«414802_j44513041056151_3_alg».proof.Proof.GatherBridge
import proofs.«414802_j44513041056151_3_alg».proof.Proof.PreDecode

set_option maxRecDepth 16384

noncomputable section

namespace Cert.Join

open Idealize.ShloMosaic Idealize.ShloMosaic.TcCoe Idealize.ShloMosaic.ValueIdx
open Idealize.SL Idealize.SL.Sem

/-- The kernel region's result array is the reference's clipped distance matrix of the launch contents of `x`. -/
theorem dist_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Region.distArr m ρ c : Cert.KernelIdeal.S4096x4096.Idx → Elt Ideal .f32)
      = Cert.ReferenceIdeal.Read.val_main_v13 (F := Ideal)
          (m ((c.tc : Thread Cert.KernelIdeal.nD Cert.KernelIdeal.τ).loc Cert.KernelIdeal.main_arg0)) := by
  funext y
  obtain ⟨i, j, rfl⟩ : ∃ (i : Fin 4096) (j : Fin 4096), y = ix2 i j := ⟨y 0, y 1, eq_ix2 y⟩
  exact (Cert.KernelIdeal.Region.arr_apply (F := Ideal) (Cert.KernelIdeal.Region.V0 m ρ) c Cert.Spec.entry
      Cert.KernelIdeal.Region.outBlk_apply i j).trans
    (Cert.ReferenceIdeal.RefValue.dist_apply _ i j).symm

/-- The kernel program's host tail over the reference's distance matrix is the reference's result, for triplets in range. -/
theorem result_eq (x : FVec Ideal Cert.KernelIdeal.S4096x512 .f32) (t : IVec Cert.KernelIdeal.S65536x3 32)
    (hr : Cert.Bridge.InRange t) :
    Cert.KernelIdeal.Tail.result (F := Ideal) (Cert.ReferenceIdeal.Read.val_main_v13 (F := Ideal) x) t
      = Cert.ReferenceIdeal.Read.val_main_v52 (F := Ideal) x t := by
  unfold Cert.KernelIdeal.Tail.result
  rw [Cert.Bridge.take_pos _ t hr, Cert.Bridge.take_neg _ t hr]
  rfl

end Cert.Join

end
-- ==== Proof.lean ====
/-
  The certificate of the triplet-loss program over the clipped pairwise squared-distance matrix: the kernel's program
  (a 4 × 4 grid of 1024 × 1024 blocks of max (|xᵢ|² + |xⱼ|² − 2⟨xᵢ, xⱼ⟩, 0), both operand windows reading the one array
  `x`, then a flat lookup at i·4096 + j and the mean of log1p (exp (d_pos − d_neg))) against the reference.

  The three frames: the kernel's program at both instances runs to the end with its arguments unchanged (the region's two
  input windows share `x` at half shares; the host operations after it write their own buffers only), and the reference
  is a straight line of host operations. The idealization rewrote nothing. At the ideal instance, under the
  precondition that every triplet entry is a row index in [0, 4096), both programs return the same extended real.
-/
import proofs.«414802_j44513041056151_3_alg».proof.Defs
import proofs.«414802_j44513041056151_3_alg».proof.Proof.Gen.Kernel
import proofs.«414802_j44513041056151_3_alg».proof.Proof.Gen.KernelIdeal
import proofs.«414802_j44513041056151_3_alg».proof.Proof.Gen.ReferenceIdeal
import proofs.«414802_j44513041056151_3_alg».proof.Proof.Gen.Pre_finite_inputs
import proofs.«414802_j44513041056151_3_alg».proof.Proof.KFrame
import proofs.«414802_j44513041056151_3_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Region.frame (F := Bits) m ρ

theorem frame_ki : Cert.frame_KernelIdeal := fun m ρ _ => Cert.KernelIdeal.Region.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's loss of the arguments: the kernel's by its value run, the region's
    array being the reference's distance matrix and the lookups agreeing on triplets in range. -/
theorem algebraic : Cert.algebraic_KernelIdeal_ReferenceIdeal := by
  intro m ρ m' ρ' hpre hagree
  refine ⟨fun c => Cert.KernelIdeal.Tail.result (F := Ideal) (Cert.KernelIdeal.Region.distArr m ρ c)
      (m ((c.tc : Thread Cert.KernelIdeal.nD Cert.KernelIdeal.τ).loc Cert.KernelIdeal.main_arg1)),
    Cert.KernelIdeal.Region.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2]
  show _ = Cert.KernelIdeal.Tail.result (F := Ideal) (Cert.KernelIdeal.Region.distArr m ρ c)
    (m ((c.tc : Thread Cert.KernelIdeal.nD Cert.KernelIdeal.τ).loc Cert.KernelIdeal.main_arg1))
  rw [Cert.Join.dist_eq m ρ c]
  exact (Cert.Join.result_eq _ _ (Cert.PreDecode.range_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
